-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1024 .f32) (main_arg1 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1024#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x1024 : Shape := ⟨2, ![65536, 1024]⟩
abbrev S65536 : Shape := ⟨1, ![65536]⟩
abbrev S_ : Shape := ⟨0, ![]⟩
abbrev S65536x1 : Shape := ⟨2, ![65536, 1]⟩
abbrev S8x256 : Shape := ⟨2, ![8, 256]⟩
abbrev S2048x1024 : Shape := ⟨2, ![2048, 1024]⟩
abbrev S2048x1 : Shape := ⟨2, ![2048, 1]⟩
abbrev S8x128 : Shape := ⟨2, ![8, 128]⟩
abbrev S1x1 : Shape := ⟨2, ![1, 1]⟩
abbrev S2048 : Shape := ⟨1, ![2048]⟩
abbrev S1 : Shape := ⟨1, ![1]⟩

abbrev nBuf : Space → Nat
  | .hbm => 17
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S8x256, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S65536 : S_.BroadcastsInDim S65536 (![] : Fin 0 → Fin S65536.rank)
  shapeCasts_S65536_S65536x1 : S65536.ShapeCasts S65536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S8x256_S1x1_0_0 : S8x256.Slices ![0, 0] S1x1
  shapeCasts_S1x1_S_ : S1x1.ShapeCasts S_
  slices_S8x256_S1x1_0_128 : S8x256.Slices ![0, 128] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x256.size a
  hwx0_2 : ∀ i : grid0.Coords, EltTy.bits .f32 = 32 ∨ (Rect.block (s := S8x256) S8x128.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x1024 : Shape := ⟨2, ![65536, 1024]⟩
abbrev S65536 : Shape := ⟨1, ![65536]⟩
abbrev S65536x1 : Shape := ⟨2, ![65536, 1]⟩
abbrev S_ : Shape := ⟨0, ![]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S65536x1, .i32⟩
  | .hbm, ⟨3, _⟩ => ⟨S_, .i32⟩
  | .hbm, ⟨4, _⟩ => ⟨S65536x1, .i32⟩
  | .hbm, ⟨5, _⟩ => ⟨S65536x1, .i1⟩
  | .hbm, ⟨6, _⟩ => ⟨S_, .i32⟩
  | .hbm, ⟨7, _⟩ => ⟨S65536x1, .i32⟩
  | .hbm, ⟨8, _⟩ => ⟨S65536x1, .i32⟩
  | .hbm, ⟨9, _⟩ => ⟨S65536x1, .i32⟩
  | .hbm, ⟨10, _⟩ => ⟨S65536x1x1, .i32⟩
  | .hbm, ⟨11, _⟩ => ⟨S1, .i32⟩
  | .hbm, ⟨12, _⟩ => ⟨S_, .i32⟩
  | .hbm, ⟨13, _⟩ => ⟨S65536x1x1, .i32⟩
  | .hbm, ⟨14, _⟩ => ⟨S65536x1x1, .i1⟩
  | .hbm, ⟨15, _⟩ => ⟨S1x1x1, .i32⟩
  | .hbm, ⟨16, _⟩ => ⟨S65536x1x1, .i32⟩
  | .hbm, ⟨17, _⟩ => ⟨S65536x1x1, .i1⟩
  | .hbm, ⟨18, _⟩ => ⟨S65536x1x1, .i1⟩
  | .hbm, ⟨19, _⟩ => ⟨S_, .i1⟩
  | .hbm, ⟨20, _⟩ => ⟨S65536x1, .i1⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536, .f32⟩
  | .hbm, ⟨26, _⟩ => ⟨S_, .f32⟩
  | .hbm, ⟨27, _⟩ => ⟨S65536, .f32⟩
  | .hbm, ⟨28, _⟩ => ⟨S65536, .f32⟩
  | .hbm, ⟨29, _⟩ => ⟨S_, .f32⟩
  | .hbm, ⟨30, _⟩ => ⟨S65536, .f32⟩
  | .hbm, ⟨31, _⟩ => ⟨S65536, .f32⟩
  | .hbm, ⟨32, _⟩ => ⟨S65536, .f32⟩
  | .hbm, ⟨33, _⟩ => ⟨S65536, .f32⟩
  | .hbm, ⟨34, _⟩ => ⟨S_, .f32⟩
  | .hbm, ⟨35, _⟩ => ⟨S65536, .f32⟩
  | .hbm, ⟨36, _⟩ => ⟨S65536, .f32⟩
  | .hbm, ⟨37, _⟩ => ⟨S65536, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  h_S_ : 0 < S_.numel
  shapeCasts_S65536x1_S65536 : S65536x1.ShapeCasts S65536
  bcast_S_S65536 : S_.BroadcastsInDim S65536 (![] : Fin 0 → Fin S65536.rank)
  reducesTo_S65536_S_d0 : S65536.ReducesTo [0] S_
  gather_S65536x1024_S65536x1x1_S65536x1_n_1_0_0_1_2_11_wf : GatherDims.WF S65536x1024 S65536x1x1 S65536x1 [] [1] [0] [1] [0] 2 ![1, 1]

variable [Facts₀]

def gather_S65536x1024_S65536x1x1_S65536x1_n_1_0_0_1_2_11 : GatherDims S65536x1024 S65536x1x1 S65536x1 where
  offsetDims := []
  collapsedSliceDims := [1]
  operandBatchingDims := [0]
  startIndicesBatchingDims := [0]
  startIndexMap := [1]
  indexVectorDim := 2
  sliceSizes := ![1, 1]
  wf := gather_S65536x1024_S65536x1x1_S65536x1_n_1_0_0_1_2_11_wf

class Facts : Prop extends Facts₀ where

variable [Facts]
-- ==== Proof.FocalLaw.lean ====
/-
  The arithmetic of the focal loss on the extended reals, with no program in sight.

  Per row the loss is  -(1 - p)^2 * (log p * c)  where p is the probability the row's label selects and c is
  the float nearest 1/ln 2.  One program squares by a product and negates by subtracting from zero, the other
  uses a real power with exponent 2 and a negation: on a real p the two agree, because a real power with
  exponent 2 is the square for every real base.  The mean over 65536 rows is taken once as a quotient by 65536
  and once as two half sums each scaled by 2^-16 and added: scaling by a non-negative real distributes over a
  sum of extended reals, and consecutive runs of naturals tile a range.
-/
import Idealize.ShloMosaic.PureOps.Ideal
import Idealize.ShloMosaic.PureOps.Ideal.Laws

noncomputable section

namespace Cert.Focal

open Idealize.ShloMosaic

/-! ## The float words the two programs spell, as extended reals -/

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_rows : Ideal.ofBits .f32 0x47800000#32 = ((65536 : ℝ) : EReal) := by
  simp [Ideal.ofBits, Ideal.ieee, -EReal.coe_mul]; norm_num

theorem bits_inv_rows : Ideal.ofBits .f32 0x37800000#32 = ((1 / 65536 : ℝ) : EReal) := by
  simp [Ideal.ofBits, Ideal.ieee, -EReal.coe_mul]; norm_num

/-! ## One row's loss, in the two spellings -/

/-- The loss of a row whose label selects `p`, squared by a product and negated by subtraction from zero. -/
def rowLoss (p : EReal) : EReal :=
  (Ideal.ofBits .f32 0x00000000#32 - (Ideal.ofBits .f32 0x3F800000#32 - p) * (Ideal.ofBits .f32 0x3F800000#32 - p))
    * (Ideal.log p * Ideal.ofBits .f32 0x3FB8AA3B#32)

/-- The same loss with the square spelt as a power with exponent 2 and the sign as a negation. -/
def rowLossPow (p : EReal) : EReal :=
  (-(Ideal.pow (Ideal.ofBits .f32 0x3F800000#32 - p) (Ideal.ofBits .f32 0x40000000#32)))
    * (Ideal.log p * Ideal.ofBits .f32 0x3FB8AA3B#32)

/-- On a real probability the two spellings are one number: `x ^ 2 = x * x` for every real `x`. -/
theorem rowLossPow_eq (p : ℝ) : rowLossPow (p : EReal) = rowLoss (p : EReal) := by
  unfold rowLossPow rowLoss
  rw [bits_one, bits_two, Ideal.ofBits_zero_f32, ← EReal.coe_sub, Ideal.pow_coe_coe, zero_sub, ← EReal.coe_mul]
  have h : Real.rpow (1 - p) 2 = (1 - p) * (1 - p) := by
    rw [Real.rpow_eq_pow, Real.rpow_two, sq]
  rw [h]

/-! ## Runs of naturals -/

/-- A sum over `a * b` consecutive naturals is the sum of `a` consecutive runs of `b`. -/
theorem sum_range_runs {M : Type*} [AddCommMonoid M] (f : ℕ → M) (a b : ℕ) :
    ∑ i ∈ Finset.range (a * b), f i = ∑ k ∈ Finset.range a, ∑ r ∈ Finset.range b, f (k * b + r) := by
  induction a with
  | zero => simp
  | succ a ih => rw [Nat.succ_mul, Finset.sum_range_add, ih, Finset.sum_range_succ]

/-- The rows of one half of the batch: sixteen runs of 2048 rows, starting at run `16 * p`. -/
def halfSum (T : ℕ → EReal) (p : ℕ) : EReal :=
  ∑ k ∈ Finset.range 16, ∑ r ∈ Finset.range 2048, T ((p * 16 + k) * 2048 + r)

theorem halfSum_eq (T : ℕ → EReal) (p : ℕ) : halfSum T p = ∑ i ∈ Finset.range 32768, T (p * 32768 + i) := by
  unfold halfSum
  rw [show (32768 : ℕ) = 16 * 2048 from rfl, sum_range_runs (fun i => T (p * (16 * 2048) + i)) 16 2048]
  refine Finset.sum_congr rfl fun k _ => Finset.sum_congr rfl fun r _ => ?_
  congr 1; ring

/-- The mean, two ways: each half scaled by 2^-16 and the two added, against the whole sum (from zero) divided by 65536. -/
theorem mean_halves (T : ℕ → EReal) :
    halfSum T 0 * ((1 / 65536 : ℝ) : EReal) + halfSum T 1 * ((1 / 65536 : ℝ) : EReal)
      = Ideal.div (0 + ∑ i : Fin 65536, T i.val) ((65536 : ℝ) : EReal) := by
  rw [Ideal.div_coe (by norm_num : (65536 : ℝ) ≠ 0), zero_add, ← Finset.sum_range (fun i => T i),
    show (65536 : ℕ) = 32768 + 32768 from rfl, Finset.sum_range_add, halfSum_eq, halfSum_eq,
    EReal.right_distrib_of_nonneg_of_ne_top (by exact_mod_cast (by norm_num : (0 : ℝ) ≤ 1 / 65536)) (EReal.coe_ne_top _)]
  simp only [Nat.zero_mul, Nat.one_mul, zero_add]

end Cert.Focal

end
-- ==== Proof.RowTerm.lean ====
/-
  The loss of one batch row as a function of the row's number: the row loss of the table entry in the column the
  row's label names.  The label word is reduced modulo the number of columns so that the column is always one;
  for a label that already is a column number the reduction changes nothing.  Past the batch the function is zero.
-/
import proofs.«430424_j76124000354538_3_alg».proof.Proof.FocalLaw
import Idealize.ShloMosaic.Lib.ValueIdx
import Idealize.ShloMosaic.Lib.Pipeline.Value

noncomputable section

namespace Cert.Focal

open Idealize.ShloMosaic Idealize.ShloMosaic.ValueIdx

/-- The loss of batch row `i`. -/
def rowTerm (x0 : (⟨2, ![65536, 1024]⟩ : Shape).Idx → EReal) (x1 : (⟨1, ![65536]⟩ : Shape).Idx → BitVec 32) (i : ℕ) : EReal :=
  if h : i < 65536 then
    rowLoss (x0 (ix2 ⟨i, h⟩ ⟨(x1 (ix1 ⟨i, h⟩)).toNat % 1024, Nat.mod_lt _ (by norm_num)⟩))
  else 0

theorem rowTerm_of_lt (x0 : (⟨2, ![65536, 1024]⟩ : Shape).Idx → EReal) (x1 : (⟨1, ![65536]⟩ : Shape).Idx → BitVec 32)
    (i : ℕ) (h : i < 65536) (hl : (x1 (ix1 ⟨i, h⟩)).toNat < 1024) :
    rowTerm x0 x1 i = rowLoss (x0 (ix2 ⟨i, h⟩ ⟨(x1 (ix1 ⟨i, h⟩)).toNat, hl⟩)) := by
  unfold rowTerm
  rw [dif_pos h]
  congr 2
  exact Shape.idx_ext₂ rfl (Nat.mod_eq_of_lt hl)

end Cert.Focal

end
-- ==== Proof.RefValue.lean ====
/-
  The reference's result, for a finite table and labels that are column numbers.

  The reference picks, in every row, the table entry in the column the row's label names: it first turns a
  negative label into label + 1024, checks that the result is a column number, gathers, and substitutes a
  filler where the check fails.  For a label that already is a column number the first step changes nothing, the
  check passes and the gather's own clamp is idle, so the picked entry is the table's entry in that column.  Each
  picked entry p becomes -(1 - p)^2 * (log p * c) — the square spelt as a power with exponent 2, which on a real
  p is the product —, and the result is the sum of these over the 65536 rows, from zero, divided by 65536.
-/
import proofs.«430424_j76124000354538_3_alg».proof.Proof.RefRead
import proofs.«430424_j76124000354538_3_alg».proof.Proof.RowTerm
import Idealize.ShloMosaic.Lib.ReduceAll
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx

/-! ## The two operations read by hand: an and-reduction of ones, and the row gather -/

/-- A left fold by "and" from 1 over 1s is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- An and-reduction, from 1, of an array of 1s is 1 everywhere. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ (fun n _ => hx n)

abbrev gd := gather_S65536x1024_S65536x1x1_S65536x1_n_1_0_0_1_2_11

/-- The gather's row coordinate for result row `b`: the batching axis carries the row through. -/
theorem gather_row (idx : IVec S65536x1x1 32) (b : Fin 65536) :
    gd.start (ix2 b 0) idx (0 : Fin 2) + gd.batchCoord (ix2 b 0) (0 : Fin 2) + gd.offCoord (ix2 b 0) (0 : Fin 2) = b.val := by
  have hb : (0 : Fin 2) ∈ gd.operandBatchingDims := List.mem_singleton.mpr rfl
  rw [GatherDims.start_batching _ _ _ _ hb, GatherDims.offCoord_eq_zero _ _ _ (fun h => ((GatherDims.mem_sKept _ _).mp h).2 hb)]
  unfold GatherDims.batchCoord
  rw [dif_pos hb]
  simp only [Nat.zero_add, Nat.add_zero]
  unfold GatherDims.siCoord
  simp only [Fin.val_cast]
  with_unfolding_all rfl

/-- The gather's column coordinate for result row `b`: the row's start index, read signed and clamped into the columns. -/
theorem gather_col (idx : IVec S65536x1x1 32) (b : Fin 65536) :
    gd.start (ix2 b 0) idx (1 : Fin 2) + gd.batchCoord (ix2 b 0) (1 : Fin 2) + gd.offCoord (ix2 b 0) (1 : Fin 2)
      = min (idx (ix3 b 0 0)).toInt.toNat 1023 := by
  have hnb : (1 : Fin 2) ∉ gd.operandBatchingDims := by decide
  have hc : (1 : Fin 2) ∈ gd.collapsedSliceDims := List.mem_singleton.mpr rfl
  have hm : (1 : Fin 2) ∈ gd.startIndexMap := List.mem_singleton.mpr rfl
  rw [GatherDims.batchCoord_eq_zero _ _ _ hnb, GatherDims.offCoord_eq_zero _ _ _ (fun h => ((GatherDims.mem_sKept _ _).mp h).1 hc)]
  simp only [Nat.add_zero]
  unfold GatherDims.start
  rw [dif_pos hm]
  have hsi : gd.siIdx (ix2 b 0) ⟨List.idxOf (1 : Fin 2) gd.startIndexMap, List.idxOf_lt_length_iff.2 hm⟩ = ix3 b 0 0 := by
    funext q; refine Fin.ext ?_
    match q with
    | ⟨0, _⟩ => rfl
    | ⟨1, _⟩ => rfl
    | ⟨2, _⟩ => rfl
  rw [hsi]
  rfl

/-- THE GATHER READ AT ROW `b`: the table's row `b` at the row's start index, read signed and clamped into the columns. -/
theorem gather_apply {α : Type} (x : S65536x1024.Idx → α) (idx : IVec S65536x1x1 32) (b : Fin 65536) :
    Host.gather gather_S65536x1024_S65536x1x1_S65536x1_n_1_0_0_1_2_11 x idx (ix2 b 0)
      = x (ix2 b ⟨min (idx (ix3 b 0 0)).toInt.toNat 1023, by omega⟩) := by
  unfold Host.gather
  refine congrArg x (funext fun a => Fin.ext ?_)
  match a with
  | ⟨0, _⟩ => exact gather_row idx b
  | ⟨1, _⟩ => exact gather_col idx b

/-! ## The reference, stage by stage, for labels that are column numbers -/

variable (x0 : FVec Ideal S65536x1024 .f32) (x1 : IVec S65536 32)

/-- The row a start-index position belongs to. -/
abbrev row3 (i : S65536x1x1.Idx) : Fin 65536 := i 0

/-- The label word after the negative-label step is the label itself. -/
theorem wrapped_apply (hx : ∀ j, (x1 j).toNat < 1024) (i : S65536x1x1.Idx) :
    val_main_call0_v5 (F := Ideal) x1 i = x1 (ix1 (row3 i)) := by
  have hidx : idx_main_v0 (idx_main_call0_v5 i) = ix1 (row3 i) := by
    funext a; refine Fin.ext ?_
    match a with
    | ⟨0, _⟩ =>
      have h1 : (i 1).val < 1 := (i 1).isLt
      have h2 : (i 2).val < 1 := (i 2).isLt
      show (((i 0).val * 1 + (i 1).val) * 1 + (i 2).val) / 1 = (i 0).val
      omega
  rw [val_main_call0_v5_apply, val_main_call0_v4_apply, val_main_call0_v1_apply, val_main_v0_apply, hidx,
    val_main_call0_v0_apply, val_main_call0_c_apply]
  have hw := hx (ix1 (row3 i))
  have hti : (x1 (ix1 (row3 i))).toInt = (x1 (ix1 (row3 i))).toNat := StableHlo.Predicate.toInt_eq_toNat_of_lt (by omega)
  have hneg : IntOp.cmpi .slt (x1 (ix1 (row3 i))) 0#32 = 0#1 := by
    apply eq_zero_of_ne_one
    rw [IntOp.cmpi_slt, hti]
    have h0 : (0#32 : BitVec 32).toInt = 0 := by decide
    rw [h0]; omega
  rw [hneg, select_zero]

/-- So the check that the label is a column number passes in every row. -/
theorem check_apply (hx : ∀ j, (x1 j).toNat < 1024) (j : S65536x1.Idx) :
    val_main_call0_v12 (F := Ideal) x1 j = 1#1 := by
  unfold val_main_call0_v12
  refine reduce_andi_ones _ _ _ _ (fun _ => rfl) (fun i => ?_) j
  rw [val_main_call0_v11_apply, val_main_call0_v7_apply, val_main_call0_v10_apply, wrapped_apply x1 hx,
    val_main_call0_v6_apply, val_main_call0_c_2_apply, val_main_call0_v9_apply, val_main_call0_v8_apply, val_main_call0_c_1_apply]
  have hw := hx (ix1 (row3 i))
  have hti : (x1 (ix1 (row3 i))).toInt = (x1 (ix1 (row3 i))).toNat := StableHlo.Predicate.toInt_eq_toNat_of_lt (by omega)
  have h0 : (0#32 : BitVec 32).toInt = 0 := by decide
  have h1 : (1023#32 : BitVec 32).toInt = 1023 := by decide
  refine IntOp.andi_eq_one.2 ⟨IntOp.cmpi_sge.2 ?_, IntOp.cmpi_sle.2 ?_⟩
  · rw [h0, hti]; omega
  · rw [h1, hti]; omega

/-- The entry the reference picks in row `b`: the table's, in the column the label names. -/
theorem picked_apply (hx : ∀ j, (x1 j).toNat < 1024) (b : Fin 65536) :
    val_main_v2 (F := Ideal) x0 x1 (ix1 b) = x0 (ix2 b ⟨(x1 (ix1 b)).toNat, hx _⟩) := by
  have hidx : idx_main_v2 (ix1 b) = ix2 b 0 := by
    funext a; refine Fin.ext ?_
    match a with
    | ⟨0, _⟩ => show b.val / 1 = b.val; omega
    | ⟨1, _⟩ => rfl
  rw [val_main_v2_apply, hidx, val_main_v1_apply, check_apply x1 hx, select_one]
  unfold val_main_call0_v13
  rw [gather_apply]
  refine congrArg x0 (Shape.idx_ext₂ rfl ?_)
  have hw := hx (ix1 b)
  have hti : (x1 (ix1 b)).toInt = (x1 (ix1 b)).toNat := StableHlo.Predicate.toInt_eq_toNat_of_lt (by omega)
  show min (val_main_call0_v5 (F := Ideal) x1 (ix3 b 0 0)).toInt.toNat 1023 = (x1 (ix1 b)).toNat
  rw [wrapped_apply x1 hx]
  show min (x1 (ix1 b)).toInt.toNat 1023 = (x1 (ix1 b)).toNat
  rw [hti, Int.toNat_natCast]; omega

/-- A row's term of the reference's sum: the loss, power spelling, of the picked entry. -/
theorem term_apply (j : S65536.Idx) :
    val_main_v11 (F := Ideal) x0 x1 j = Cert.Focal.rowLossPow (val_main_v2 (F := Ideal) x0 x1 j) := by
  rw [val_main_v11_apply, val_main_v7_apply, val_main_v6_apply, val_main_v4_apply, val_main_v3_apply, val_main_cst_apply,
    val_main_v5_apply, val_main_cst_0_apply, val_main_v10_apply, val_main_v8_apply, val_main_v9_apply, val_main_cst_1_apply]
  generalize val_main_v2 (F := Ideal) x0 x1 j = p
  rfl

/-- Rows of the batch by number. -/
def rowEquiv : S65536.Idx ≃ Fin 65536 where
  toFun j := j 0
  invFun k := ix1 k
  left_inv j := (eq_ix1 j).symm
  right_inv k := rfl

/-- THE REFERENCE'S RESULT: the batch's row losses summed from zero, divided by 65536. -/
theorem result_apply (hfin : ∀ i, ∃ r : ℝ, x0 i = (r : EReal)) (hx : ∀ j, (x1 j).toNat < 1024) (i : S_.Idx) :
    val_main_v13 (F := Ideal) x0 x1 i
      = Ideal.div (0 + ∑ k : Fin 65536, Cert.Focal.rowTerm x0 x1 k.val) ((65536 : ℝ) : EReal) := by
  rw [val_main_v13_apply, val_main_v12_apply, val_main_cst_3_apply, val_main_cst_2_apply]
  show Ideal.div (Ideal.ofBits .f32 0x00000000#32 + ∑ j : S65536.Idx, val_main_v11 (F := Ideal) x0 x1 j) (Ideal.ofBits .f32 0x47800000#32) = _
  rw [Ideal.ofBits_zero_f32, Cert.Focal.bits_rows]
  refine congrArg (fun z => Ideal.div (0 + z) ((65536 : ℝ) : EReal)) ?_
  refine Fintype.sum_equiv rowEquiv _ _ (fun j => ?_)
  obtain ⟨b, rfl⟩ : ∃ b : Fin 65536, j = ix1 b := ⟨j 0, eq_ix1 j⟩
  show _ = Cert.Focal.rowTerm x0 x1 b.val
  rw [term_apply, picked_apply x0 x1 hx b, Cert.Focal.rowTerm_of_lt x0 x1 b.val b.isLt (hx _)]
  obtain ⟨p, hp⟩ := hfin (ix2 b ⟨(x1 (ix1 b)).toNat, hx _⟩)
  rw [hp, Cert.Focal.rowLossPow_eq]

end Cert.ReferenceIdeal.RefValue

end
-- ==== Proof.PreDecode.lean ====
/-
  What the precondition says, element by element.

  The precondition is the conjunction of two "for all" tests, each printed as an and-reduction to one bit: every
  entry of the probability table is strictly below +infinity in absolute value, and every label is a column
  number, 0 <= label < 1024 as a signed word.  Read back: every table entry is a real number, and every label
  word, read unsigned, is below 1024.
-/
import proofs.«430424_j76124000354538_3_alg».proof.Pre_finite_inputs
import proofs.«430424_j76124000354538_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic

instance : Subsingleton S_.Idx := ⟨fun a b => funext fun d => d.elim0⟩

/-- An extended real whose absolute value is strictly below +infinity is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exact absurd h (by simp [Ideal.cmp])
  | top => exact absurd h (by simp [Ideal.cmp])
  | coe r => exact ⟨r, rfl⟩

/-- A signed word between 0 and 1023 is, read unsigned, below 1024. -/
theorem toNat_lt_of_signed (w : BitVec 32) (h0 : IntOp.cmpi .sge w 0#32 = 1#1) (h1 : IntOp.cmpi .slt w 1024#32 = 1#1) :
    w.toNat < 1024 := by
  rw [IntOp.cmpi_sge] at h0
  rw [IntOp.cmpi_slt] at h1
  have h32 := w.isLt
  unfold BitVec.toInt at h0 h1
  split at h1 <;> simp at h0 h1 <;> omega

/-- The precondition, read back at every element. -/
theorem of_pre (x0 : FVec Ideal S65536x1024 .f32) (x1 : IVec S65536 32)
    (h : fn (F := Ideal) x0 x1 = fun _ => 1#1) :
    (∀ i, ∃ r : ℝ, x0 i = (r : EReal)) ∧ (∀ j, (x1 j).toNat < 1024) := by
  have e := congrFun h ValueIdx.ix0
  dsimp only [fn] at e
  obtain ⟨e1, e2⟩ := IntOp.andi_eq_one.1 e
  constructor
  · intro i
    have hi := Host.reduce_andi_all _ _ _ _ _ e1 i
    exact real_of_abs_lt (x0 i) hi
  · intro j
    have hj := Host.reduce_andi_all _ _ _ _ _ e2 j
    obtain ⟨h0, h1⟩ := IntOp.andi_eq_one.1 hj
    exact toNat_lt_of_signed (x1 j) h0 h1

end Cert.Pre_finite_inputs.Decode

end
-- ==== Proof.Pieces.lean ====
/-
  What each control case of the focal-loss body leaves behind, as the body's own arithmetic.

  The body keeps a one-element running sum.  At the first step of a core's sixteen it stores zero and then
  the sum of zero and the step's block sum; at a later step it stores the carried sum plus the block sum; at the
  last step it also writes the carried-plus-block sum, scaled by 2^-16 and replicated, into the core's 8x128
  output tile.  Each statement below says that what a case leaves is the corresponding pure term of the step's
  two input blocks and of the sum carried in.
-/
import proofs.«430424_j76124000354538_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := by funext a; fin_cases a <;> rfl

/-- First step of a core's run: the running sum restarts, so it ends at zero plus the block's sum. -/
theorem sum_first (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S8x128 .f32) (harg4 : arg4.IsWhole) (arg5 : Memref sig .tc .vmem S1x1 .f32) (harg5 : arg5.IsWhole) (hc0 : cond0_0 i) (hc1 : ¬cond0_1 i)
    (x0 : Vec F S2048x1024 .f32) (x1 : Vec F S2048x1 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz]
  simp only [View.readAt_eq_ld, harg2.read_unread, harg3.read_unread, harg5.read_unread, View.ld_unit_zero (S := S2048x1024) hz, View.ld_unit_zero (S := S2048x1) hz, View.ld_unit_zero (S := S1x1) hz, View.readCov_unit_zero (S := S1x1) _ hz]

/-- A middle step: the running sum grows by the block's sum. -/
theorem sum_middle (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : ¬cond0_1 i)
    (x0 : Vec F S2048x1024 .f32) (x1 : Vec F S2048x1 .i32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) hz]
  simp only [View.readAt_eq_ld, harg2.read_unread, harg3.read_unread, harg5.read_unread, View.ld_unit_zero (S := S2048x1024) hz, View.ld_unit_zero (S := S2048x1) hz, View.ld_unit_zero (S := S1x1) hz, View.readCov_unit_zero (S := S1x1) _ hz]

/-- The last step: the running sum grows by the block's sum once more. -/
theorem sum_last (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 : Vec F S2048x1024 .f32) (x1 : Vec F S2048x1 .i32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz]
  simp only [View.readAt_eq_ld, harg2.read_unread, harg3.read_unread, harg5.read_unread, View.ld_unit_zero (S := S2048x1024) hz, View.ld_unit_zero (S := S2048x1) hz, View.ld_unit_zero (S := S1x1) hz, View.readCov_unit_zero (S := S1x1) _ hz]

/-- The last step's output tile: the final running sum, scaled and replicated over the tile. -/
theorem tile_last (c : Dev nD) (i : grid0.Coords) (arg2 : Memref sig .tc .vmem S2048x1024 .f32) (harg2 : arg2.IsWhole) (arg3 : Memref sig .tc .vmem S2048x1 .i32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 : Vec F S2048x1024 .f32) (x1 : Vec F S2048x1 .i32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S8x128) hz]
  simp only [View.readAt_eq_ld, harg2.read_unread, harg3.read_unread, harg5.read_unread, View.ld_unit_zero (S := S2048x1024) hz, View.ld_unit_zero (S := S2048x1) hz, View.ld_unit_zero (S := S1x1) hz, View.readCov_unit_zero (S := S1x1) _ hz]

end Cert.KernelIdeal.Pieces

end
-- ==== Proof.BlockSum.lean ====
/-
  One grid step's arithmetic, read at an index.

  A step holds a 2048 x 1024 block of the probability table and the 2048 labels of its rows.  For each row it
  weights the row by the indicator "column number = label" and sums along the row: that is the probability the
  label selects.  It turns each such probability into a loss, sums the 2048 losses, and adds the total to the
  running sum carried in.  Written out: the running sum after the step is the running sum before it plus the
  sum over the block's rows of the row loss of the weighted row sum.  When a row's label is a column number the
  weighted row sum is the table entry in that column.  The last step's output tile holds the running sum times
  2^-16 at every position.
-/
import proofs.«430424_j76124000354538_3_alg».proof.Proof.Gen.KernelIdeal.Skeleton
import proofs.«430424_j76124000354538_3_alg».proof.Proof.FocalLaw
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.BlockSum

open Cert.KernelIdeal Cert.KernelIdeal.Gen
open Idealize.ShloMosaic Idealize.ShloMosaic.ValueIdx

/-- The weight of column `c` against a label word: one where the column's number is the word, zero elsewhere. -/
def pick (c : Fin 1024) (w : BitVec 32) : EReal :=
  ((((IntOp.cmpi .eq (BitVec.ofNat 32 c.val) w).setWidth 32).toInt : ℝ) : EReal)

/-- A row's selected probability as the body forms it: the row weighted column by column, and summed. -/
def rowProb (x0 : FVec Ideal S2048x1024 .f32) (x1 : IVec S2048x1 32) (r : Fin 2048) : EReal :=
  ∑ c : Fin 1024, x0 (ix2 r c) * pick c (x1 (ix2 r 0))

/-! ## The body's values, named -/

/-- The 0/1 table: column number against the row's label, as floats. -/
def weights (x1 : IVec S2048x1 32) : FVec Ideal S2048x1024 .f32 :=
  sitofp .f32 (extui 32 (cmpi .eq (iota .tc S2048x1024 32 [1] iota_S2048x1024_d1_w32)
    (broadcastTo S2048x1024 (shapeCast S2048x1 x1 shapeCasts_S2048x1_S2048x1) broadcasts_S2048x1_S2048x1024)) natLt_1_32)

/-- The column of selected probabilities. -/
def probs (x0 : FVec Ideal S2048x1024 .f32) (x1 : IVec S2048x1 32) : FVec Ideal S2048x1 .f32 :=
  shapeCast S2048x1 (multiReduction .add [1] S2048 (mulf x0 (weights x1)) 0x00000000#32 reduces_S2048x1024_S2048 (.inl rfl) rfl)
    shapeCasts_S2048_S2048x1

/-- The column of row losses. -/
def losses (p : FVec Ideal S2048x1 .f32) : FVec Ideal S2048x1 .f32 :=
  mulf (subf (broadcast S2048x1 (Scalar.ofBits .f32 0x00000000#32))
      (mulf (subf (broadcast S2048x1 (Scalar.ofBits .f32 0x3F800000#32)) p) (subf (broadcast S2048x1 (Scalar.ofBits .f32 0x3F800000#32)) p)))
    (mulf (log p) (broadcast S2048x1 (Scalar.ofBits .f32 0x3FB8AA3B#32)))

/-- The block's total, as a one-element array. -/
def total (l : FVec Ideal S2048x1 .f32) : FVec Ideal S1x1 .f32 :=
  shapeCast S1x1 (multiReduction .add [0] S1 l 0x00000000#32 reduces_S2048x1_S1 (.inl rfl) rfl) shapeCasts_S1_S1x1

theorem pay2_eq (x0 : FVec Ideal S2048x1024 .f32) (x1 : IVec S2048x1 32) (acc : FVec Ideal S1x1 .f32) :
    k0_pay2 (F := Ideal) x0 x1 acc = shapeCast S1x1 (addf acc (total (losses (probs x0 x1)))) shapeCasts_S1x1_S1x1 := rfl

/-! ## Each value at an index -/

theorem weights_apply (x1 : IVec S2048x1 32) (r : Fin 2048) (c : Fin 1024) :
    weights x1 (ix2 r c) = pick c (x1 (ix2 r 0)) := by
  unfold weights pick
  show (((((IntOp.cmpi .eq (iota .tc S2048x1024 32 [1] iota_S2048x1024_d1_w32 (ix2 r c))
    (broadcastTo S2048x1024 (shapeCast S2048x1 x1 shapeCasts_S2048x1_S2048x1) broadcasts_S2048x1_S2048x1024 (ix2 r c))).setWidth 32).toInt : ℝ) : EReal)) = _
  rw [iota_single_apply, shapeCast_self,
    broadcastTo_apply x1 broadcasts_S2048x1_S2048x1024 (ix2 r c) (ix2 r 0) (fun a => by
      match a with
      | ⟨0, _⟩ => rfl
      | ⟨1, _⟩ => rfl)]

theorem probs_apply (x0 : FVec Ideal S2048x1024 .f32) (x1 : IVec S2048x1 32) (r : Fin 2048) :
    probs x0 x1 (ix2 r 0) = rowProb x0 x1 r := by
  unfold probs rowProb
  refine (shapeCast_apply _ shapeCasts_S2048_S2048x1 (ix2 r 0) (ix1 r) (by
    rw [Shape.rowMajor_val_one, Shape.rowMajor_val_two]; show r.val = r.val * 1 + 0; omega)).trans ?_
  refine (Ideal.multiReduction_add_single _ _ _ _ _ _).trans ?_
  show ∑ k : Fin 1024, _ = _
  refine Finset.sum_congr rfl fun k _ => ?_
  have e : reduces_S2048x1024_S2048.lift (ix1 r) k = ix2 r k := Shape.idx_ext₂ rfl rfl
  rw [e]
  show x0 (ix2 r k) * weights x1 (ix2 r k) = _
  rw [weights_apply]

theorem losses_apply (p : FVec Ideal S2048x1 .f32) (i : S2048x1.Idx) :
    losses p i = Cert.Focal.rowLoss (p i) := rfl

theorem total_apply (l : FVec Ideal S2048x1 .f32) (y : S1x1.Idx) :
    total l y = ∑ r : Fin 2048, l (ix2 r 0) := by
  unfold total
  have hy0 : (y 0).val = 0 := by have h : (y 0).val < 1 := (y 0).isLt; omega
  have hy1 : (y 1).val = 0 := by have h : (y 1).val < 1 := (y 1).isLt; omega
  refine (shapeCast_apply _ shapeCasts_S1_S1x1 y (ix1 (0 : Fin 1)) (by
    rw [Shape.rowMajor_val_one, Shape.rowMajor_val_two]; show 0 = (y 0).val * 1 + (y 1).val; omega)).trans ?_
  refine (Ideal.multiReduction_add_single _ _ _ _ _ _).trans ?_
  show ∑ k : Fin 2048, _ = _
  refine Finset.sum_congr rfl fun k _ => ?_
  have e : reduces_S2048x1_S1.lift (ix1 (0 : Fin 1)) k = ix2 k 0 := Shape.idx_ext₂ rfl rfl
  rw [e]

/-- The running sum after a step: what was carried in, plus the block's rows' losses. -/
theorem pay2_apply (x0 : FVec Ideal S2048x1024 .f32) (x1 : IVec S2048x1 32) (acc : FVec Ideal S1x1 .f32) (y : S1x1.Idx) :
    k0_pay2 (F := Ideal) x0 x1 acc y = acc y + ∑ r : Fin 2048, Cert.Focal.rowLoss (rowProb x0 x1 r) := by
  rw [pay2_eq, shapeCast_self]
  show acc y + total (losses (probs x0 x1)) y = _
  rw [total_apply]
  refine congrArg (acc y + ·) (Finset.sum_congr rfl fun r _ => ?_)
  rw [losses_apply, probs_apply]

/-- The restart value of the running sum is zero. -/
theorem pay1_apply (y : S1x1.Idx) : k0_pay1 (F := Ideal) y = 0 := by
  unfold k0_pay1
  rw [shapeCast_self]
  show Ideal.ofBits .f32 0x00000000#32 = 0
  exact Ideal.ofBits_zero_f32

/-- The output tile holds the final running sum times 2^-16 at every position. -/
theorem pay3_apply (s : FVec Ideal S1x1 .f32) (y : S8x128.Idx) :
    k0_pay3 (F := Ideal) s y = s (ix2 0 0) * Ideal.ofBits .f32 0x37800000#32 := by
  unfold k0_pay3
  refine (broadcastTo_apply _ broadcasts_S1x1_S8x128 y (ix2 0 0) (fun a => by
    match a with
    | ⟨0, _⟩ => rfl
    | ⟨1, _⟩ => rfl)).trans ?_
  rw [shapeCast_self]
  rfl

/-! ## A weighted row whose label is a column number -/

/-- With the label a column number, only that column carries weight: the weighted sum is the entry there. -/
theorem rowProb_of_lt (x0 : FVec Ideal S2048x1024 .f32) (x1 : IVec S2048x1 32) (r : Fin 2048)
    (h : (x1 (ix2 r 0)).toNat < 1024) : rowProb x0 x1 r = x0 (ix2 r ⟨(x1 (ix2 r 0)).toNat, h⟩) := by
  unfold rowProb
  rw [Finset.sum_eq_single (⟨(x1 (ix2 r 0)).toNat, h⟩ : Fin 1024)]
  · have e : IntOp.cmpi .eq (BitVec.ofNat 32 (x1 (ix2 r 0)).toNat) (x1 (ix2 r 0)) = 1#1 :=
      IntOp.cmpi_eq.2 (BitVec.eq_of_toNat_eq (by
        rw [BitVec.toNat_ofNat]; exact Nat.mod_eq_of_lt (x1 (ix2 r 0)).isLt))
    unfold pick
    rw [e]
    have one : (((1#1 : BitVec 1).setWidth 32).toInt : ℝ) = 1 := by norm_num [BitVec.toInt]
    rw [one, EReal.coe_one, mul_one]
  · intro c _ hc
    have e : IntOp.cmpi .eq (BitVec.ofNat 32 c.val) (x1 (ix2 r 0)) = 0#1 := by
      apply eq_zero_of_ne_one
      rw [IntOp.cmpi_eq]
      intro hh
      apply hc
      apply Fin.ext
      have := congrArg BitVec.toNat hh
      rw [BitVec.toNat_ofNat, Nat.mod_eq_of_lt (by have := c.isLt; omega)] at this
      exact this
    unfold pick
    rw [e]
    have zero : (((0#1 : BitVec 1).setWidth 32).toInt : ℝ) = 0 := by norm_num [BitVec.toInt]
    rw [zero, EReal.coe_zero, mul_zero]
  · intro hn; exact absurd (Finset.mem_univ _) hn

end Cert.KernelIdeal.BlockSum

end
-- ==== Proof.Accumulate.lean ====
/-
  The running sum, point by point.

  The grid has 32 points: core p = t / 16 takes steps t % 16 = 0 … 15 over its half of the rows.  The running
  sum restarts at a core's first step and grows by one block total at each step, so after point t it is the sum
  of the block totals of points t - t % 16 … t; at a core's last step the output tile holds that sum — the
  core's sixteen block totals — times 2^-16.
-/
import proofs.«430424_j76124000354538_3_alg».proof.Proof.Gen.KernelIdeal.Frame
import proofs.«430424_j76124000354538_3_alg».proof.Proof.Pieces
import proofs.«430424_j76124000354538_3_alg».proof.Proof.BlockSum

set_option maxRecDepth 16384

noncomputable section

namespace Cert.KernelIdeal.Accumulate

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The block of the probability table and the block of labels a point holds, at their literal shapes. -/
abbrev tableBlk (c : Dev nD) (t : Fin cfg0.N) : FVec Ideal S2048x1024 .f32 := iblk m c 0 t
abbrev labelBlk (c : Dev nD) (t : Fin cfg0.N) : IVec S2048x1 32 := iblk m c 1 t

/-- The total loss of the rows point `k` holds (zero past the grid, where nothing is asked of it). -/
def stepLoss (c : Dev nD) (k : ℕ) : EReal :=
  if h : k < cfg0.N then ∑ r : Fin 2048, Cert.Focal.rowLoss (BlockSum.rowProb (tableBlk m c ⟨k, h⟩) (labelBlk m c ⟨k, h⟩) r) else 0

theorem stepLoss_at (c : Dev nD) (t : Fin cfg0.N) :
    stepLoss m c t.val = ∑ r : Fin 2048, Cert.Focal.rowLoss (BlockSum.rowProb (tableBlk m c t) (labelBlk m c t) r) := by
  unfold stepLoss; rw [dif_pos t.isLt]

/-- At a core's first step the running sum is that step's block total. -/
theorem run_first (c : Dev nD) (t : Fin cfg0.N) (h0 : t.val % 16 = 0) (h1 : ¬t.val % 16 = 15) :
    (outsAt0 m c t.val t.isLt).2 (ix2 0 0) = stepLoss m c t.val := by
  rw [outsAt0_A m c t h0 h1]; dsimp only
  refine (congrFun (Pieces.sum_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (tableBlk m c t) (labelBlk m c t)) (ix2 0 0)).trans ?_
  rw [BlockSum.pay2_apply, BlockSum.pay1_apply, zero_add, stepLoss_at]

/-- At a middle step it grows by that step's block total. -/
theorem run_middle (c : Dev nD) (t : Fin cfg0.N) (h0 : ¬t.val % 16 = 0) (h1 : ¬t.val % 16 = 15) :
    (outsAt0 m c t.val t.isLt).2 (ix2 0 0)
      = (outsAt0 m c (t.val - 1) (Nat.lt_of_le_of_lt (Nat.sub_le _ _) t.isLt)).2 (ix2 0 0) + stepLoss m c t.val := by
  rw [outsAt0_B m c t h0 h1]; dsimp only
  refine (congrFun (Pieces.sum_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (tableBlk m c t) (labelBlk m c t) (outsAt0 m c (t.val - 1) (Nat.lt_of_le_of_lt (Nat.sub_le _ _) t.isLt)).2) (ix2 0 0)).trans ?_
  rw [BlockSum.pay2_apply, stepLoss_at]

/-- At a core's last step likewise, -/
theorem run_last (c : Dev nD) (t : Fin cfg0.N) (h0 : ¬t.val % 16 = 0) (h1 : t.val % 16 = 15) :
    (outsAt0 m c t.val t.isLt).2 (ix2 0 0)
      = (outsAt0 m c (t.val - 1) (Nat.lt_of_le_of_lt (Nat.sub_le _ _) t.isLt)).2 (ix2 0 0) + stepLoss m c t.val := by
  rw [outsAt0_C m c t h0 h1]; dsimp only
  refine (congrFun (Pieces.sum_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (tableBlk m c t) (labelBlk m c t) (outsAt0 m c (t.val - 1) (Nat.lt_of_le_of_lt (Nat.sub_le _ _) t.isLt)).2) (ix2 0 0)).trans ?_
  rw [BlockSum.pay2_apply, stepLoss_at]

/-- and there the output tile holds the running sum, scaled, at every position. -/
theorem tile_last (c : Dev nD) (t : Fin cfg0.N) (h0 : ¬t.val % 16 = 0) (h1 : t.val % 16 = 15) (y : S8x128.Idx) :
    (outsAt0 m c t.val t.isLt).1 y = (outsAt0 m c t.val t.isLt).2 (ix2 0 0) * Ideal.ofBits .f32 0x37800000#32 := by
  rw [outsAt0_C m c t h0 h1]; dsimp only
  rw [Pieces.sum_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (tableBlk m c t) (labelBlk m c t) (outsAt0 m c (t.val - 1) (Nat.lt_of_le_of_lt (Nat.sub_le _ _) t.isLt)).2]
  refine (congrFun (Pieces.tile_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (tableBlk m c t) (labelBlk m c t) (outsAt0 m c (t.val - 1) (Nat.lt_of_le_of_lt (Nat.sub_le _ _) t.isLt)).2) y).trans ?_
  rw [BlockSum.pay3_apply]

/-- THE RUNNING SUM after point `n`: the block totals of the points of `n`'s core up to `n`. -/
theorem running (c : Dev nD) : ∀ (n : ℕ) (hn : n < cfg0.N),
    (outsAt0 m c n hn).2 (ix2 0 0) = ∑ k ∈ Finset.range (n % 16 + 1), stepLoss m c (n - n % 16 + k) := by
  intro n
  induction n with
  | zero =>
    intro hn
    rw [run_first m c ⟨0, hn⟩ rfl (show ¬(0 : ℕ) % 16 = 15 by decide)]
    simp
  | succ n ih =>
    intro hn
    have hN : n + 1 < 32 := lt_of_lt_of_eq hn (show cfg0.N = 32 from N_0)
    by_cases h0 : (n + 1) % 16 = 0
    · rw [run_first m c ⟨n + 1, hn⟩ h0 (by show ¬(n + 1) % 16 = 15; omega)]
      show stepLoss m c (n + 1) = _
      rw [h0]; simp
    · have step : (outsAt0 m c (n + 1) hn).2 (ix2 0 0) = (outsAt0 m c n (Nat.lt_of_succ_lt hn)).2 (ix2 0 0) + stepLoss m c (n + 1) := by
        by_cases h1 : (n + 1) % 16 = 15
        · exact run_last m c ⟨n + 1, hn⟩ h0 h1
        · exact run_middle m c ⟨n + 1, hn⟩ h0 h1
      have e1 : (n + 1) % 16 = n % 16 + 1 := by omega
      have e2 : n + 1 - (n + 1) % 16 = n - n % 16 := by omega
      rw [step, ih (Nat.lt_of_succ_lt hn), e2, e1, Finset.sum_range_succ _ (n % 16 + 1)]
      congr 2
      omega

/-- The tile a core's last step writes: its sixteen block totals, summed and scaled. -/
theorem tile_at_last (c : Dev nD) (t : Fin cfg0.N) (h1 : t.val % 16 = 15) (y : S8x128.Idx) :
    (outsAt0 m c t.val t.isLt).1 y
      = (∑ k ∈ Finset.range 16, stepLoss m c (t.val - 15 + k)) * Ideal.ofBits .f32 0x37800000#32 := by
  rw [tile_last m c t (by omega) h1 y, running m c t.val t.isLt, h1]

end Cert.KernelIdeal.Accumulate

end
-- ==== Proof.Rows.lean ====
/-
  From a grid point's blocks to the rows of the batch.

  Point t holds rows 2048 t … 2048 t + 2047 of the probability table (all 1024 columns) and the labels of the
  same rows, the labels having first been clipped into 0 … 1023 on the way in.  A label that is a column
  number is its own clip.  So, for labels in range, a point's block total is the sum of the batch's row losses
  over the point's 2048 rows.
-/
import proofs.«430424_j76124000354538_3_alg».proof.Proof.Accumulate
import proofs.«430424_j76124000354538_3_alg».proof.Proof.RowTerm
import Idealize.ShloMosaic.Lib.StableHlo.Run
import Idealize.ShloMosaic.Lib.StableHlo.Predicate

set_option maxRecDepth 16384

noncomputable section

namespace Cert.KernelIdeal.Rows

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- Which block each window holds at a point, decided over the grid: table and label blocks are numbered by the
    point itself; the output tile of a point is its core's. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val / 16 :=
  (by decide +kernel : ∀ t : Fin grid0.N, _)

/-- A column number clipped into 0 … 1023 is itself. -/
theorem clip_self (w : BitVec 32) (h : w.toNat < 1024) : IntOp.minsi 1023#32 (IntOp.maxsi 0#32 w) = w := by
  have hti : w.toInt = w.toNat := Predicate.toInt_eq_toNat_of_lt (by omega)
  have h0 : (0#32 : BitVec 32).toInt = 0 := by decide
  have h1 : (1023#32 : BitVec 32).toInt = 1023 := by decide
  have hmax : IntOp.maxsi 0#32 w = w := by
    unfold IntOp.maxsi
    split
    · rename_i hc; simp only [BitVec.slt, hti, h0, decide_eq_true_eq] at hc; omega
    · rfl
  rw [hmax]
  unfold IntOp.minsi
  split
  · rename_i hc; simp only [BitVec.slt, hti, h1, decide_eq_true_eq] at hc; omega
  · rfl

/-- The label column the region is handed: the labels clipped, as a 65536 x 1 column. -/
theorem labels_entry (c : Dev nD) : (V m c main_v1 : S65536x1.Idx → BitVec 32) =
    shapeCast S65536x1 (minsi (broadcastInDim S65536 ![] bcast_S_S65536 (constantI S_ 32 1023#32))
      (maxsi (broadcastInDim S65536 ![] bcast_S_S65536 (constantI S_ 32 0#32)) (m ((c : Thread nD τ).loc main_arg1)))) shapeCasts_S65536_S65536x1 := by
  dsimp only [Gen.V, Gen.V0]
  simp only [Gen.hostOps0, Gen.hostOps0_1, Gen.hostOps0_2, List.flatten_cons, List.flatten_nil, List.append_nil, List.cons_append, List.nil_append]
  after_results
  rfl

/-- Its entry for row `i`, when the label is a column number, is the label. -/
theorem labels_entry_apply (c : Dev nD) (i : Fin 65536) (h : (m ((c : Thread nD τ).loc main_arg1) (ix1 i)).toNat < 1024) :
    (V m c main_v1 : S65536x1.Idx → BitVec 32) (ix2 i 0) = m ((c : Thread nD τ).loc main_arg1) (ix1 i) := by
  rw [labels_entry]
  refine (shapeCast_apply _ shapeCasts_S65536_S65536x1 (ix2 i 0) (ix1 i) (by
    rw [Shape.rowMajor_val_one, Shape.rowMajor_val_two]; show i.val = i.val * 1 + 0; omega)).trans ?_
  exact clip_self _ h

/-- A table block's entry is the table's, 2048 t rows down. -/
theorem tableBlk_apply (c : Dev nD) (t : Fin cfg0.N) (r : Fin 2048) (cc : Fin 1024) (hr : t.val * 2048 + r.val < 65536) :
    Accumulate.tableBlk m c t (ix2 r cc) = m ((c : Thread nD τ).loc main_arg0) (ix2 ⟨t.val * 2048 + r.val, hr⟩ cc) := by
  rw [← V_main_arg0 m c]
  show V m c main_arg0 (((cfg0.win 0).blk t).view.emb (ix2 r cc)) = V m c main_arg0 _
  refine congrArg _ (funext fun a => Fin.ext ?_)
  obtain ⟨e0, e1, -⟩ := idx_facts t
  match a with
  | ⟨0, _⟩ => show win0_0.index t (0 : Fin 2) * 2048 + 1 * r.val = t.val * 2048 + r.val; rw [e0]; omega
  | ⟨1, _⟩ => show win0_0.index t (1 : Fin 2) * 1024 + 1 * cc.val = cc.val; rw [e1]; omega

/-- A label block's entry is the label column's, 2048 t rows down. -/
theorem labelBlk_apply (c : Dev nD) (t : Fin cfg0.N) (r : Fin 2048) (hr : t.val * 2048 + r.val < 65536) :
    Accumulate.labelBlk m c t (ix2 r 0) = (V m c main_v1 : S65536x1.Idx → BitVec 32) (ix2 ⟨t.val * 2048 + r.val, hr⟩ 0) := by
  show V m c main_v1 (((cfg0.win 1).blk t).view.emb (ix2 r 0)) = V m c main_v1 _
  refine congrArg _ (funext fun a => Fin.ext ?_)
  obtain ⟨-, -, e0, e1, -⟩ := idx_facts t
  match a with
  | ⟨0, _⟩ => show win0_1.index t (0 : Fin 2) * 2048 + 1 * r.val = t.val * 2048 + r.val; rw [e0]; omega
  | ⟨1, _⟩ => show win0_1.index t (1 : Fin 2) * 1 + 1 * 0 = 0; rw [e1]

/-- With every label a column number, a point's block total is the batch's row losses over the point's rows. -/
theorem stepLoss_eq (c : Dev nD) (hx : ∀ j, (m ((c : Thread nD τ).loc main_arg1) j).toNat < 1024) (k : ℕ) (hk : k < 32) :
    Accumulate.stepLoss m c k
      = ∑ r ∈ Finset.range 2048, Cert.Focal.rowTerm (m ((c : Thread nD τ).loc main_arg0)) (m ((c : Thread nD τ).loc main_arg1)) (k * 2048 + r) := by
  have hkN : k < cfg0.N := lt_of_lt_of_eq hk (show (32 : ℕ) = cfg0.N from N_0.symm)
  rw [Accumulate.stepLoss_at m c ⟨k, hkN⟩, Finset.sum_range]
  refine Finset.sum_congr rfl fun r _ => ?_
  have hr : k * 2048 + r.val < 65536 := by have := r.isLt; omega
  have hl : Accumulate.labelBlk m c ⟨k, hkN⟩ (ix2 r 0) = m ((c : Thread nD τ).loc main_arg1) (ix1 ⟨k * 2048 + r.val, hr⟩) :=
    (labelBlk_apply m c ⟨k, hkN⟩ r hr).trans (labels_entry_apply m c ⟨k * 2048 + r.val, hr⟩ (hx _))
  have hlt : (Accumulate.labelBlk m c ⟨k, hkN⟩ (ix2 r 0)).toNat < 1024 := by rw [hl]; exact hx _
  rw [BlockSum.rowProb_of_lt _ _ r hlt, tableBlk_apply m c ⟨k, hkN⟩ r _ hr,
    Cert.Focal.rowTerm_of_lt _ _ (k * 2048 + r.val) hr (hx _)]
  congr 2
  exact Shape.idx_ext₂ rfl (congrArg BitVec.toNat hl)

end Cert.KernelIdeal.Rows

end
-- ==== Proof.Result.lean ====
/-
  The kernel's result.

  The 8 x 256 output array is two 8 x 128 tiles side by side, one per core, written back once each, at the
  core's last step; tile p holds, at every position, the sum of the row losses of core p's half of the batch
  times 2^-16.  The lines after the launch read positions (0, 0) and (0, 128) — one in each tile — and add
  them.  So the program ends with the first half's scaled sum plus the second half's.
-/
import proofs.«430424_j76124000354538_3_alg».proof.Proof.Rows

set_option maxRecDepth 16384

noncomputable section

namespace Cert.KernelIdeal.Result

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The output array after the launch, at its literal shape. -/
abbrev outArr (c : Dev nD) : FVec Ideal S8x256 .f32 := (dats m 0 c).arrAt 2 cfg0.N

/-- The batch's row losses, from the arguments as core `c` holds them. -/
abbrev rowLosses (c : Dev nD) : ℕ → EReal :=
  Cert.Focal.rowTerm (m ((c : Thread nD τ).loc main_arg0)) (m ((c : Thread nD τ).loc main_arg1))

/-- What the two tiles hold: the scaled half sum of the core whose tile the column lies in. -/
def tiles (c : Dev nD) : S8x256.Idx → EReal :=
  fun i => Cert.Focal.halfSum (rowLosses m c) ((i 1).val / 128) * Ideal.ofBits .f32 0x37800000#32

/-- What a core's last step writes back is its tile of `tiles`. -/
theorem flushed_eq (c : Dev nD) (hx : ∀ j, (m ((c : Thread nD τ).loc main_arg1) j).toNat < 1024)
    (t : Fin cfg0.N) (hf : (cfg0.win 2).flush t = true) :
    (dats m 0 c).flushed 2 t = ((cfg0.win 2).blk t).view.read (Elt Ideal) (tiles m c) := by
  have h1 : t.val % 16 = 15 := (flush0_2 t).mp hf
  have hN : t.val < 32 := lt_of_lt_of_eq t.isLt N_0
  show (cfg0.win 2).cut (grid0.coords t) ((dats m 0 c).after 2 t) = _
  rw [after0_2]
  funext y
  show (outsAt0 m c t.val t.isLt).1 y = tiles m c (((cfg0.win 2).blk t).view.emb y)
  rw [Accumulate.tile_at_last m c t h1 y]
  unfold tiles
  have hcol : ((((cfg0.win 2).blk t).view.emb y) 1).val / 128 = t.val / 16 := by
    obtain ⟨-, -, -, -, -, e1⟩ := Rows.idx_facts t
    show (win0_2.index t (1 : Fin 2) * 128 + 1 * (y 1).val) / 128 = _
    rw [e1]; have : (y 1).val < 128 := (y 1).isLt; omega
  rw [hcol]
  congr 1
  unfold Cert.Focal.halfSum
  refine Finset.sum_congr rfl fun k hk => ?_
  have hk16 : k < 16 := Finset.mem_range.mp hk
  rw [Rows.stepLoss_eq m c hx (t.val - 15 + k) (by omega)]
  refine Finset.sum_congr rfl fun r _ => ?_
  congr 2
  omega

/-- An index of the output array lies in a point's tile iff each coordinate is in the tile's range. -/
theorem mem_tile (t : Fin cfg0.N) (i : S8x256.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- An entry under a core's tile ends at `tiles`. -/
theorem out_apply (c : Dev nD) (hx : ∀ j, (m ((c : Thread nD τ).loc main_arg1) j).toNat < 1024)
    (t : Fin cfg0.N) (h1 : t.val % 16 = 15) (i : S8x256.Idx) (hi : i ∈ ((cfg0.win 2).blk t).view.set) :
    outArr m c i = tiles m c i :=
  (dats m 0 c).arrAt_apply_of_mem 2 (tiles m c) (fun t hf => flushed_eq m c hx t hf) cfg0.N t i t.isLt ((flush0_2 t).mpr h1) hi

theorem out_first (c : Dev nD) (hx : ∀ j, (m ((c : Thread nD τ).loc main_arg1) j).toNat < 1024) :
    outArr m c (ix2 0 0) = Cert.Focal.halfSum (rowLosses m c) 0 * Ideal.ofBits .f32 0x37800000#32 := by
  have hN : (15 : ℕ) < cfg0.N := by rw [show cfg0.N = 32 from N_0]; norm_num
  rw [out_apply m c hx ⟨15, hN⟩ (show (15 : ℕ) % 16 = 15 by decide) (ix2 0 0) (by
    rw [mem_tile]
    obtain ⟨-, -, -, -, e0, e1'⟩ := Rows.idx_facts ⟨15, hN⟩
    have e1 : win0_2.index ⟨15, hN⟩ (1 : Fin 2) = 0 := e1'.trans (by norm_num)
    intro a
    match a with
    | ⟨0, _⟩ => show win0_2.index ⟨15, hN⟩ (0 : Fin 2) * 8 ≤ 0 ∧ 0 < win0_2.index ⟨15, hN⟩ (0 : Fin 2) * 8 + 8; rw [e0]; omega
    | ⟨1, _⟩ => show win0_2.index ⟨15, hN⟩ (1 : Fin 2) * 128 ≤ 0 ∧ 0 < win0_2.index ⟨15, hN⟩ (1 : Fin 2) * 128 + 128; rw [e1]; omega)]
  rfl

theorem out_second (c : Dev nD) (hx : ∀ j, (m ((c : Thread nD τ).loc main_arg1) j).toNat < 1024) :
    outArr m c (ix2 0 128) = Cert.Focal.halfSum (rowLosses m c) 1 * Ideal.ofBits .f32 0x37800000#32 := by
  have hN : (31 : ℕ) < cfg0.N := by rw [show cfg0.N = 32 from N_0]; norm_num
  rw [out_apply m c hx ⟨31, hN⟩ (show (31 : ℕ) % 16 = 15 by decide) (ix2 0 128) (by
    rw [mem_tile]
    obtain ⟨-, -, -, -, e0, e1'⟩ := Rows.idx_facts ⟨31, hN⟩
    have e1 : win0_2.index ⟨31, hN⟩ (1 : Fin 2) = 1 := e1'.trans (by norm_num)
    intro a
    match a with
    | ⟨0, _⟩ => show win0_2.index ⟨31, hN⟩ (0 : Fin 2) * 8 ≤ 0 ∧ 0 < win0_2.index ⟨31, hN⟩ (0 : Fin 2) * 8 + 8; rw [e0]; omega
    | ⟨1, _⟩ => show win0_2.index ⟨31, hN⟩ (1 : Fin 2) * 128 ≤ 128 ∧ 128 < win0_2.index ⟨31, hN⟩ (1 : Fin 2) * 128 + 128; rw [e1]; omega)]
  rfl

/-- The lines after the launch: entry (0, 0) plus entry (0, 128) of the output array. -/
theorem tail_value (c : Dev nD) :
    Pipeline.afterTail₀ cfgs (dats m) 0 (V0 m) [hostOps1] c main_v7
      = fun _ => outArr m c (ix2 0 0) + outArr m c (ix2 0 128) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.tc.devRef main_v2) = outArr m c :=
    Pipeline.withArrays_arr spec0 launch0.win.arr_inj c _ _ 2
  rw [hA]
  funext i
  show (shapeCast S_ (extractStridedSlice S1x1 ![0, 0] (outArr m c) slices_S8x256_S1x1_0_0) shapeCasts_S1x1_S_ i : EReal)
      + (shapeCast S_ (extractStridedSlice S1x1 ![0, 128] (outArr m c) slices_S8x256_S1x1_0_128) shapeCasts_S1x1_S_ i : EReal) = _
  rw [shapeCast_apply _ shapeCasts_S1x1_S_ i (ix2 (0 : Fin 1) (0 : Fin 1)) (by rw [Shape.rowMajor_val_two]; rfl),
    shapeCast_apply _ shapeCasts_S1x1_S_ i (ix2 (0 : Fin 1) (0 : Fin 1)) (by rw [Shape.rowMajor_val_two]; rfl),
    extractStridedSlice_apply ![0, 0] (outArr m c) slices_S8x256_S1x1_0_0 (ix2 (0 : Fin 1) (0 : Fin 1)) (ix2 0 0) (fun a => by
      match a with
      | ⟨0, _⟩ => rfl
      | ⟨1, _⟩ => rfl),
    extractStridedSlice_apply ![0, 128] (outArr m c) slices_S8x256_S1x1_0_128 (ix2 (0 : Fin 1) (0 : Fin 1)) (ix2 0 128) (fun a => by
      match a with
      | ⟨0, _⟩ => rfl
      | ⟨1, _⟩ => rfl)]

/-- THE KERNEL'S RUN: with every label a column number, every execution ends with the two scaled half sums
    added, the arguments unchanged. -/
theorem run (ρ : Dev nD → PrngReg) (hx : ∀ (c : Dev nD) j, (m ((c : Thread nD τ).loc main_arg1) j).toNat < 1024) :
    θ_run defs (onTc (τ := τ) (main (F := Ideal))) ⟨m, fun _ => 0, ρ⟩ (fun r => ∀ c : Dev nD,
      r.2.mem ((c.tc : Thread nD τ).loc main_v7)
          = (fun _ => Cert.Focal.halfSum (rowLosses m c) 0 * Ideal.ofBits .f32 0x37800000#32
              + Cert.Focal.halfSum (rowLosses m c) 1 * Ideal.ofBits .f32 0x37800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v7 (Pipeline.mem_restRefs_of main_v7 (by decide) (by decide))).trans
        ((tail_value m c).trans (by rw [out_first m c (hx c), out_second m c (hx c)])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.lean ====
/-
  The focal loss  mean_i -(1 - p_i)^2 * (log p_i * c),  p_i = input[i, target[i]],  c the float nearest 1/ln 2,  two ways.

  The kernel selects p_i without a gather: it weights row i by the indicator "column = label" and sums the
  row; it squares 1 - p_i by a product; two cores each run sixteen steps of 2048 rows, carry a one-element
  running sum, and at their last step write the sum times 2^-16 into their tile; the host adds one entry of
  each tile.  The reference gathers p_i, squares by a power with exponent 2, sums all 65536 rows and divides
  by 65536.  The labels are clipped into 0 … 1023 by the kernel's wrapper and wrapped (negative + 1024) and
  range-checked by the reference, which differ outside 0 … 1023; the statement is for finite tables and labels
  that are column numbers, where both read the table's entry in the labelled column.  There the two results
  are one extended real: a real power with exponent 2 is the product, sums of extended reals may be regrouped
  freely, and scaling by the non-negative real 2^-16 distributes over the sum of the two halves and is division
  by 65536.  The idealization rewrote nothing, so the kernel's preservation claim is empty.
-/
import proofs.«430424_j76124000354538_3_alg».proof.Defs
import proofs.«430424_j76124000354538_3_alg».proof.Proof.Gen.Kernel
import proofs.«430424_j76124000354538_3_alg».proof.Proof.Gen.Kernel.Skeleton
import proofs.«430424_j76124000354538_3_alg».proof.Proof.Gen.Kernel.Launch
import proofs.«430424_j76124000354538_3_alg».proof.Proof.Gen.Kernel.Points
import proofs.«430424_j76124000354538_3_alg».proof.Proof.Gen.Kernel.Frame
import proofs.«430424_j76124000354538_3_alg».proof.Proof.Gen.KernelIdeal
import proofs.«430424_j76124000354538_3_alg».proof.Proof.Gen.KernelIdeal.Skeleton
import proofs.«430424_j76124000354538_3_alg».proof.Proof.Gen.KernelIdeal.Launch
import proofs.«430424_j76124000354538_3_alg».proof.Proof.Gen.KernelIdeal.Points
import proofs.«430424_j76124000354538_3_alg».proof.Proof.Gen.KernelIdeal.Frame
import proofs.«430424_j76124000354538_3_alg».proof.Proof.Gen.ReferenceIdeal
import proofs.«430424_j76124000354538_3_alg».proof.Proof.Gen.Pre_finite_inputs
import proofs.«430424_j76124000354538_3_alg».proof.Proof.RefRun
import proofs.«430424_j76124000354538_3_alg».proof.Proof.RefValue
import proofs.«430424_j76124000354538_3_alg».proof.Proof.PreDecode
import proofs.«430424_j76124000354538_3_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.RunP.run (F := Ideal) m ρ)

/-- Under the precondition both programs end at the same extended real: the kernel at the two scaled half sums
    added, the reference at the whole sum divided by 65536, of the same row losses. -/
theorem algebraic : Cert.algebraic_KernelIdeal_ReferenceIdeal := by
  intro m ρ m' ρ' hpre hagree
  have hdec := fun c : Dev Cert.KernelIdeal.nD => Cert.Pre_finite_inputs.Decode.of_pre _ _ (hpre c)
  refine ⟨fun c => fun _ =>
      Cert.Focal.halfSum (Cert.KernelIdeal.Result.rowLosses m c) 0 * Ideal.ofBits .f32 0x37800000#32
        + Cert.Focal.halfSum (Cert.KernelIdeal.Result.rowLosses m c) 1 * Ideal.ofBits .f32 0x37800000#32,
    Cert.KernelIdeal.Result.run m ρ (fun c j => (hdec c).2 j), ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v13_eq, (hagree c).1, (hagree c).2]
  funext i
  refine (Cert.ReferenceIdeal.RefValue.result_apply _ _ (hdec c).1 (hdec c).2 i).trans ?_
  rw [Cert.Focal.bits_inv_rows]
  exact (Cert.Focal.mean_halves _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
